-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S16x1024 : Shape := ⟨2, ![16, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg1 : IVec S65536 32) (main_v13 : IVec S_ 1) (main_v15 : IVec S65536 1) (main_c_5 : IVec S_ 1) : IVec S_ 1 :=
  let main_v16 : IVec S_ 1 := (fun x v => Host.reduce IntOp.andi x v reducesTo_S65536_S_d0 h_S_) main_v15 main_c_5
  let main_v17 : IVec S_ 1 := andi main_v13 main_v16
  let main_c_6 : IVec S_ 32 := constantI S_ 32 16#32
  let main_v18 : IVec S65536 32 := broadcastInDim S65536 ![] bcast_S_S65536 main_c_6
  let main_v19 : IVec S65536 1 := cmpi .slt main_arg1 main_v18
  let main_c_7 : IVec S_ 1 := constantI S_ 1 1#1
  let main_v20 : IVec S_ 1 := (fun x v => Host.reduce IntOp.andi x v reducesTo_S65536_S_d0 h_S_) main_v19 main_c_7
  let main_v21 : IVec S_ 1 := andi main_v17 main_v20
  main_v21

def fn {F : FTy → Type} [FloatOps F] (main_arg0 : FVec F S65536x1024 .f32) (main_arg1 : IVec S65536 32) (main_arg2 : FVec F S16x1024 .f32) (main_arg3 : FVec F S16x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S16x1024 .f32 := Host.absf main_arg2
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S16x1024 .f32 := Host.absf main_arg3
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  let main_c_4 : IVec S_ 32 := constantI S_ 32 0#32
  let main_v14 : IVec S65536 32 := broadcastInDim S65536 ![] bcast_S_S65536 main_c_4
  let main_v15 : IVec S65536 1 := cmpi .sge main_arg1 main_v14
  let main_c_5 : IVec S_ 1 := constantI S_ 1 1#1
  fn_part1 (F := F) main_arg1 main_v13 main_v15 main_c_5
-- ==== Kernel.lean ====
abbrev S65536x1024 : Shape := ⟨2, ![65536, 1024]⟩
abbrev S65536 : Shape := ⟨1, ![65536]⟩
abbrev S16x1024 : Shape := ⟨2, ![16, 1024]⟩
abbrev S_ : Shape := ⟨0, ![]⟩
abbrev S16x2048 : Shape := ⟨2, ![16, 2048]⟩
abbrev S1x65536 : Shape := ⟨2, ![1, 65536]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S1024x2048 : Shape := ⟨2, ![1024, 2048]⟩

abbrev nBuf : Space → Nat
  | .hbm => 15
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S16x1024, .f32⟩
  | .hbm, ⟨3, _⟩ => ⟨S16x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S16x2048, .f32⟩
  | .hbm, ⟨13, _⟩ => ⟨S1x65536, .i32⟩
  | .hbm, ⟨14, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .i32⟩
  | .local _ .vmem, ⟨3, _⟩ => ⟨S1x1024, .i32⟩
  | .local _ .vmem, ⟨4, _⟩ => ⟨S16x2048, .f32⟩
  | .local _ .vmem, ⟨5, _⟩ => ⟨S1024x1024, .f32⟩
  | .local _ .vmem, ⟨6, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S65536 : S_.BroadcastsInDim S65536 (![] : Fin 0 → Fin S65536.rank)
  concatenates_S16x1024_S16x1024_S16x2048_d1 : Shape.Concatenates [S16x1024, S16x1024] S16x2048 1
  shapeCasts_S65536_S1x65536 : S65536.ShapeCasts S1x65536
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S16x1024_d0_w32 : S16x1024.Iotas .tc 32 [0]
  broadcasts_S1x1024_S16x1024 : S1x1024.Broadcasts S16x1024
  natLt_1_32 : 1 < 32
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  slices_S1024x2048_o0_0_S1024x1024 : S1024x2048.Slices ![0, 0] S1024x1024
  slices_S1024x2048_o0_1024_S1024x1024 : S1024x2048.Slices ![0, 1024] S1024x1024
  dot_S16x1024_S16x2048_S1024x2048_0_0_1_1_n_n_wf : DotDims.WF S16x1024 S16x2048 S1024x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x65536.size a
  hwx0_1 : ∀ i : grid0.Coords, EltTy.bits .i32 = 32 ∨ (Rect.block (s := S1x65536) S1x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x2048.size a
  hwx0_2 : ∀ i : grid0.Coords, EltTy.bits .f32 = 32 ∨ (Rect.block (s := S16x2048) S16x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S65536x1024.size a
  hwx0_3 : ∀ i : grid0.Coords, EltTy.bits .f32 = 32 ∨ (Rect.block (s := S65536x1024) S1024x1024.size (cc0_transform_3 i) (hinb0_3 i)).WholeWords (EltTy.packing .f32)

variable [Facts₀]

def dot_S16x1024_S16x2048_S1024x2048_0_0_1_1_n_n : DotDims S16x1024 S16x2048 S1024x2048 where
  lhsContracting := [0]
  rhsContracting := [0]
  lhsNonContracting := [1]
  rhsNonContracting := [1]
  lhsBatch := []
  rhsBatch := []
  wf := dot_S16x1024_S16x2048_S1024x2048_0_0_1_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536 : Shape := ⟨1, ![65536]⟩
abbrev S16x1024 : Shape := ⟨2, ![16, 1024]⟩
abbrev S_ : Shape := ⟨0, ![]⟩
abbrev S65536x1 : Shape := ⟨2, ![65536, 1]⟩

abbrev nBuf : Space → Nat
  | .hbm => 47
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S_, .i32⟩
  | .hbm, ⟨28, _⟩ => ⟨S65536, .i32⟩
  | .hbm, ⟨29, _⟩ => ⟨S65536, .i1⟩
  | .hbm, ⟨30, _⟩ => ⟨S_, .i32⟩
  | .hbm, ⟨31, _⟩ => ⟨S65536, .i32⟩
  | .hbm, ⟨32, _⟩ => ⟨S65536, .i32⟩
  | .hbm, ⟨33, _⟩ => ⟨S65536, .i32⟩
  | .hbm, ⟨34, _⟩ => ⟨S65536x1, .i32⟩
  | .hbm, ⟨35, _⟩ => ⟨S65536x1024, .f32⟩
  | .hbm, ⟨36, _⟩ => ⟨S_, .i32⟩
  | .hbm, ⟨37, _⟩ => ⟨S65536, .i32⟩
  | .hbm, ⟨38, _⟩ => ⟨S65536, .i1⟩
  | .hbm, ⟨39, _⟩ => ⟨S_, .i32⟩
  | .hbm, ⟨40, _⟩ => ⟨S65536, .i32⟩
  | .hbm, ⟨41, _⟩ => ⟨S65536, .i32⟩
  | .hbm, ⟨42, _⟩ => ⟨S65536, .i32⟩
  | .hbm, ⟨43, _⟩ => ⟨S65536x1, .i32⟩
  | .hbm, ⟨44, _⟩ => ⟨S65536x1024, .f32⟩
  | .hbm, ⟨45, _⟩ => ⟨S65536x1024, .f32⟩
  | .hbm, ⟨46, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  reducesTo_S65536x1024_S65536_d1 : S65536x1024.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)
  bcast_S_S65536 : S_.BroadcastsInDim S65536 (![] : Fin 0 → Fin S65536.rank)
  gather_S16x1024_S65536x1_S65536x1024_1_0_n_n_0_1_11024_wf : GatherDims.WF S16x1024 S65536x1 S65536x1024 [1] [0] [] [0] [] 1 ![1, 1024]

variable [Facts₀]

def gather_S16x1024_S65536x1_S65536x1024_1_0_n_n_0_1_11024 : GatherDims S16x1024 S65536x1 S65536x1024 where
  offsetDims := [1]
  collapsedSliceDims := [0]
  operandBatchingDims := []
  startIndicesBatchingDims := []
  startIndexMap := [0]
  indexVectorDim := 1
  sliceSizes := ![1, 1024]
  wf := gather_S16x1024_S65536x1_S65536x1024_1_0_n_n_0_1_11024_wf

class Facts : Prop extends Facts₀ where

variable [Facts]
-- ==== Proof.Spec.lean ====
/-
  One output element of the per-row normalisation followed by a per-row affine map, written twice: as the
  kernel computes it and as the reference computes it, and the law that joins them.

  A row x of 1024 reals has mean μ = (Σ x)·2⁻¹⁰ and variance v = (Σ (x − μ)²)·2⁻¹⁰. The kernel scales the deviation
  x q − μ by rsqrt (max v 0 + ε) and picks its affine pair out of a 16-row table by a one-hot contraction
  Σₖ [k = id]·W k; the reference divides the deviation by √(v + ε), with μ and v as quotients by 1024, and reads
  row id of the table. On the extended reals the quotient by 1024 is the product with 2⁻¹⁰ everywhere; a sum of
  squares of reals is a non-negative real, so the maximum with 0 is idle and v + ε is a positive real, where
  d · (√y)⁻¹ is d / √y; and the one-hot sum is its one surviving term because 0 · a = 0 for every extended real a.
  The row index is a word in [0, 16): clamping it to [0, 15], and wrapping a negative word by 16, both leave it.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.Spec

open Idealize.ShloMosaic

/-! ## The float words both programs spell -/

/-- The kernel's reciprocal word is exactly 2⁻¹⁰ = 1/1024. -/
theorem inv1024 : Ideal.ofBits .f32 0x3A800000#32 = ((1 / 1024 : ℝ) : EReal) := by
  simp [Ideal.ofBits, Ideal.ieee, -EReal.coe_mul]; norm_num

/-- The reference's divisor word is exactly 1024. -/
theorem n1024 : Ideal.ofBits .f32 0x44800000#32 = ((1024 : ℝ) : EReal) := by
  simp [Ideal.ofBits, Ideal.ieee, -EReal.coe_mul]; norm_num

/-- The shared ε word denotes a positive real (its exact value is never needed: both sides carry the same word). -/
theorem eps_pos : ∃ ε : ℝ, 0 < ε ∧ Ideal.ofBits .f32 0x3727C5AC#32 = (ε : EReal) := by
  have h : Ideal.ofBits .f32 0x3727C5AC#32 = ((10995116 * (2 : ℝ) ^ (-40 : ℤ) : ℝ) : EReal) := by
    simp [Ideal.ofBits, Ideal.ieee, -EReal.coe_mul]
  exact ⟨_, by positivity, h⟩

/-! ## Sums of reals inside the extended reals -/

theorem sum_coe {ι : Type} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-! ## The row index word -/

/-- The one-hot weight of table row k for the index word id, as the kernel builds it: the comparison bit of
    k against id, widened to a word and converted to a float. -/
def oh (k : Fin 16) (id : BitVec 32) : EReal :=
  (((BitVec.setWidth 32 (IntOp.cmpi .eq (BitVec.ofNat 32 k.val) id)).toInt : ℝ) : EReal)

theorem oh_eq (k : Fin 16) (id : BitVec 32) : oh k id = if k.val = id.toNat then 1 else 0 := by
  unfold oh
  have hk := k.isLt
  by_cases h : k.val = id.toNat
  · have e : BitVec.ofNat 32 k.val = id := by
      apply BitVec.eq_of_toNat_eq; rw [BitVec.toNat_ofNat, ← h]; omega
    rw [if_pos h, StableHlo.Predicate.cmpi_eq_iff.mpr e]
    simp
  · have e : ¬ IntOp.cmpi .eq (BitVec.ofNat 32 k.val) id = 1#1 := fun hc => by
      have := StableHlo.Predicate.cmpi_eq_iff.mp hc
      apply h; rw [← this, BitVec.toNat_ofNat]; omega
    rw [if_neg h, ValueIdx.eq_zero_of_ne_one e]
    simp

/-- The one-hot contraction over the table's 16 rows keeps the one row the word names: every other term is
    0 · a = 0, whatever extended real a is. -/
theorem onehot_sum (id : BitVec 32) (h : id.toNat < 16) (f : Fin 16 → EReal) :
    ∑ k : Fin 16, oh k id * f k = f ⟨id.toNat, h⟩ := by
  rw [Finset.sum_eq_single (⟨id.toNat, h⟩ : Fin 16)]
  · rw [oh_eq, if_pos rfl, one_mul]
  · intro k _ hk
    rw [oh_eq, if_neg (fun e => hk (Fin.ext e)), zero_mul]
  · intro hn; exact absurd (Finset.mem_univ _) hn

/-- A word in [0, 16) is not negative and below 2³¹, read signed. -/
theorem toInt_small (id : BitVec 32) (h : id.toNat < 16) : id.toInt = id.toNat :=
  StableHlo.Predicate.toInt_eq_toNat_of_lt (by omega)

/-- Clamping such a word to [0, 15] leaves it. -/
theorem clip_id (id : BitVec 32) (h : id.toNat < 16) : IntOp.minsi 15#32 (IntOp.maxsi 0#32 id) = id := by
  have hi := toInt_small id h
  have h0 : (0#32 : BitVec 32).toInt = 0 := by decide
  have h15 : (15#32 : BitVec 32).toInt = 15 := by decide
  have hmax : IntOp.maxsi 0#32 id = id := by
    unfold IntOp.maxsi
    split
    · rename_i hc
      simp only [BitVec.slt, hi, h0, decide_eq_true_eq] at hc
      apply BitVec.eq_of_toNat_eq; simp only [BitVec.toNat_ofNat]; omega
    · rfl
  rw [hmax]
  unfold IntOp.minsi
  split
  · rename_i hc
    simp only [BitVec.slt, hi, h15, decide_eq_true_eq] at hc
    apply BitVec.eq_of_toNat_eq; simp only [BitVec.toNat_ofNat]; omega
  · rfl

/-- The table row the reference reads for the index word id: a negative word wrapped by 16, then the start
    index clamped into the table. -/
def rowOf (id : BitVec 32) : Fin 16 :=
  ⟨min (Scalar.select (IntOp.cmpi .slt id 0#32) (IntOp.addi id 16#32) id).toInt.toNat 15, by omega⟩

theorem rowOf_eq (id : BitVec 32) (h : id.toNat < 16) : rowOf id = ⟨id.toNat, h⟩ := by
  have hi := toInt_small id h
  have h0 : (0#32 : BitVec 32).toInt = 0 := by decide
  have e : ¬ IntOp.cmpi .slt id 0#32 = 1#1 := by
    unfold IntOp.cmpi
    simp only [BitVec.slt, hi, h0, StableHlo.Predicate.ofBool_eq_one_iff, decide_eq_true_eq]
    omega
  unfold rowOf
  apply Fin.ext
  show min (Scalar.select (IntOp.cmpi .slt id 0#32) (IntOp.addi id 16#32) id).toInt.toNat 15 = id.toNat
  rw [ValueIdx.eq_zero_of_ne_one e, ValueIdx.select_zero, hi]
  simp only [Int.toNat_natCast]
  omega

/-! ## One row's mean and variance, both ways -/

/-- The kernel's row mean: the sum times 2⁻¹⁰. -/
def kMean (xr : Fin 1024 → EReal) : EReal := (∑ k : Fin 1024, xr k) * Ideal.ofBits .f32 0x3A800000#32

/-- The kernel's row variance: the sum of the squared deviations times 2⁻¹⁰. -/
def kVar (xr : Fin 1024 → EReal) : EReal :=
  (∑ k : Fin 1024, (xr k - kMean xr) * (xr k - kMean xr)) * Ideal.ofBits .f32 0x3A800000#32

/-- The reference's row mean: the sum from 0, divided by 1024. -/
def rMean (xr : Fin 1024 → EReal) : EReal :=
  Ideal.div (Ideal.ofBits .f32 0x00000000#32 + ∑ k : Fin 1024, xr k) (Ideal.ofBits .f32 0x44800000#32)

/-- The reference's row variance. -/
def rVar (xr : Fin 1024 → EReal) : EReal :=
  Ideal.div (Ideal.ofBits .f32 0x00000000#32 + ∑ k : Fin 1024, (xr k - rMean xr) * (xr k - rMean xr))
    (Ideal.ofBits .f32 0x44800000#32)

/-- Dividing by 1024 is multiplying by 2⁻¹⁰ on every extended real: the two means are one. -/
theorem rMean_eq (xr : Fin 1024 → EReal) : rMean xr = kMean xr := by
  unfold rMean kMean
  rw [Ideal.ofBits_zero_f32, zero_add, n1024, Ideal.div_coe (by norm_num), inv1024]

theorem rVar_eq (xr : Fin 1024 → EReal) : rVar xr = kVar xr := by
  unfold rVar kVar
  rw [Ideal.ofBits_zero_f32, zero_add, n1024, Ideal.div_coe (by norm_num), inv1024]
  simp only [rMean_eq]

/-- The variance of a row of reals is a non-negative real. -/
theorem kVar_real (xr : Fin 1024 → EReal) (hx : ∀ k, ∃ r : ℝ, xr k = (r : EReal)) :
    ∃ v : ℝ, 0 ≤ v ∧ kVar xr = (v : EReal) := by
  choose a ha using hx
  obtain rfl : xr = fun k => ((a k : ℝ) : EReal) := funext ha
  refine ⟨(∑ k : Fin 1024, (a k - (∑ j : Fin 1024, a j) * (1 / 1024)) * (a k - (∑ j : Fin 1024, a j) * (1 / 1024))) * (1 / 1024),
    mul_nonneg (Finset.sum_nonneg fun k _ => mul_self_nonneg _) (by norm_num), ?_⟩
  simp only [kVar, kMean, inv1024, sum_coe, ← EReal.coe_mul, ← EReal.coe_sub]

/-! ## One output element, both ways -/

/-- The kernel's element at column q of a row xr, for the (clamped) index word id' and the table's two
    columns W, B at q. -/
def kElt (xr : Fin 1024 → EReal) (q : Fin 1024) (id' : BitVec 32) (W B : Fin 16 → EReal) : EReal :=
  (xr q - kMean xr)
      * Ideal.rsqrt (max (kVar xr) (Ideal.ofBits .f32 0x00000000#32) + Ideal.ofBits .f32 0x3727C5AC#32)
      * (∑ k : Fin 16, oh k id' * W k)
    + ∑ k : Fin 16, oh k id' * B k

/-- The reference's element there, for the index word id as given. -/
def rElt (xr : Fin 1024 → EReal) (q : Fin 1024) (id : BitVec 32) (W B : Fin 16 → EReal) : EReal :=
  Ideal.div (xr q - rMean xr) (Ideal.sqrt (rVar xr + Ideal.ofBits .f32 0x3727C5AC#32)) * W (rowOf id)
    + B (rowOf id)

/-- At a positive real y, scaling by rsqrt y is dividing by √y. -/
theorem mul_rsqrt_eq_div_sqrt (d : EReal) (y : ℝ) (hy : 0 < y) :
    d * Ideal.rsqrt (y : EReal) = Ideal.div d (Ideal.sqrt (y : EReal)) := by
  rw [Ideal.rsqrt_coe, Ideal.sqrt_coe, if_neg (not_lt.2 hy.le), if_neg hy.ne', if_neg (not_lt.2 hy.le),
    Ideal.div_coe (Real.sqrt_ne_zero'.2 hy), one_div]

/-- THE LAW. For a row of reals and an index word in [0, 16) the kernel's element, computed from the word
    clamped to [0, 15], is the reference's element. -/
theorem kElt_eq_rElt (xr : Fin 1024 → EReal) (hx : ∀ k, ∃ r : ℝ, xr k = (r : EReal)) (q : Fin 1024)
    (id : BitVec 32) (hid : id.toNat < 16) (W B : Fin 16 → EReal) :
    kElt xr q (IntOp.minsi 15#32 (IntOp.maxsi 0#32 id)) W B = rElt xr q id W B := by
  obtain ⟨v, hv0, hv⟩ := kVar_real xr hx
  obtain ⟨ε, hε, he⟩ := eps_pos
  unfold kElt rElt
  rw [clip_id id hid, onehot_sum id hid, onehot_sum id hid, rowOf_eq id hid, rMean_eq, rVar_eq, hv, he,
    Ideal.ofBits_zero_f32, max_eq_left (by exact_mod_cast hv0), ← EReal.coe_add,
    mul_rsqrt_eq_div_sqrt _ _ (by positivity)]

end Cert.Spec

end
-- ==== Proof.KernelPayload.lean ====
/-
  The kernel body's stored value, read one element at a time. For a [1024, 1024] block x of the input, the [1, 1024]
  block of index words and the [16, 2048] table (the weight and bias tables side by side), the element at (p, q):
  the row sum of x over the lane axis, kept as a [1024, 1] column, times 2⁻¹⁰ is the mean of row p; the deviation
  x(p, q) − mean; the same sum over the squared deviations is the variance; the deviation is scaled by
  rsqrt (max variance 0 + ε) of row p. The one-hot matrix has, at (k, p), the comparison of the row number k with the
  index word of column p, widened and converted to a float; contracting its axis 0 against the table's axis 0 gives,
  at (p, j), Σₖ onehot(k, p)·table(k, j); columns q and 1024 + q of that product are the weight and the bias.
  Put together this is the element kElt of Spec.lean.
-/
import proofs.«414600_j86955907875125_3_alg».proof.Proof.Gen.KernelIdeal.Skeleton
import proofs.«414600_j86955907875125_3_alg».proof.Proof.Spec
import Idealize.ShloMosaic.Lib.Pipeline.Value
import Idealize.ShloMosaic.Lib.ValueIdx
import Idealize.ShloMosaic.PureOps.Ideal.Laws

noncomputable section

namespace Cert.KernelPayload

open Idealize.ShloMosaic Idealize.ShloMosaic.ValueIdx Cert.KernelIdeal Cert.KernelIdeal.Gen Cert.Spec

/-- Column q of the table's weight half, and of its bias half. -/
abbrev colW (q : Fin 1024) : Fin 2048 := ⟨q.val, by have := q.isLt; omega⟩
abbrev colB (q : Fin 1024) : Fin 2048 := ⟨1024 + q.val, by have := q.isLt; omega⟩

/-! ## The layout steps, each at one index -/

/-- A lane sum of a [1024, 1024] block at row p is the sum over the columns. -/
theorem rowsum_at (y : FVec Ideal S1024x1024 .f32) (p : Fin 1024) :
    multiReduction .add [1] S1024 y 0x00000000#32 reduces_S1024x1024_S1024 (.inl rfl) rfl (ix1 p)
      = ∑ k : Fin 1024, y (ix2 p k) := by
  refine (Ideal.multiReduction_add_single y 0x00000000#32 reduces_S1024x1024_S1024 (.inl rfl) rfl (ix1 p)).trans ?_
  refine Finset.sum_congr rfl fun k _ => congrArg y ?_
  exact funext fun a => Fin.ext (by match a with | ⟨0, _⟩ => rfl | ⟨1, _⟩ => rfl)

/-- A vector kept as a [1024, 1] column reads, at (p, 0), the vector at p. -/
theorem col_at {α : Type} (v : S1024.Idx → α) (p : Fin 1024) :
    shapeCast S1024x1 v shapeCasts_S1024_S1024x1 (ix2 p (0 : Fin 1)) = v (ix1 p) :=
  shapeCast_apply v _ (ix2 p (0 : Fin 1)) (ix1 p) (by
    show ((⟨1, ![1024]⟩ : Shape).rowMajor (ix1 p)).val = ((⟨2, ![1024, 1]⟩ : Shape).rowMajor (ix2 p (0 : Fin 1))).val
    rw [Shape.rowMajor_val_one, Shape.rowMajor_val_two]
    show p.val = p.val * 1 + 0
    omega)

/-- A [1024, 1] column broadcast along the rows reads, at (p, q), the column at (p, 0). -/
theorem bcol_at {α : Type} (v : S1024x1.Idx → α) (p q : Fin 1024) :
    broadcastTo S1024x1024 v broadcasts_S1024x1_S1024x1024 (ix2 p q) = v (ix2 p (0 : Fin 1)) :=
  broadcastTo_apply v _ (ix2 p q) (ix2 p (0 : Fin 1)) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A [1, 1024] row broadcast down the 16 table rows reads, at (k, p), the row at (0, p). -/
theorem brow_at {α : Type} (v : S1x1024.Idx → α) (k : Fin 16) (p : Fin 1024) :
    broadcastTo S16x1024 v broadcasts_S1x1024_S16x1024 (ix2 k p) = v (ix2 (0 : Fin 1) p) :=
  broadcastTo_apply v _ (ix2 k p) (ix2 (0 : Fin 1) p) (fun a => match a with
    | ⟨0, _⟩ => by show 0 = if (1 : Nat) = 1 then 0 else k.val; rw [if_pos rfl]
    | ⟨1, _⟩ => by show p.val = if (1024 : Nat) = 1 then 0 else p.val; rw [if_neg (by decide)])

/-! ## The body's intermediate values, named as the body computes them -/

variable (x0 : FVec Ideal S1024x1024 .f32) (x1 : IVec S1x1024 32) (x2 : FVec Ideal S16x2048 .f32)

/-- The mean column. -/
def meanCol : FVec Ideal S1024x1 .f32 :=
  mulf (shapeCast S1024x1 (multiReduction .add [1] S1024 x0 0x00000000#32 reduces_S1024x1024_S1024 (.inl rfl) rfl)
      shapeCasts_S1024_S1024x1)
    (broadcast S1024x1 (Scalar.ofBits (F := Ideal) .f32 0x3A800000#32))

/-- The deviations. -/
def dev : FVec Ideal S1024x1024 .f32 := subf x0 (broadcastTo S1024x1024 (meanCol x0) broadcasts_S1024x1_S1024x1024)

/-- The variance column. -/
def varCol : FVec Ideal S1024x1 .f32 :=
  mulf (shapeCast S1024x1 (multiReduction .add [1] S1024 (mulf (dev x0) (dev x0)) 0x00000000#32 reduces_S1024x1024_S1024
      (.inl rfl) rfl) shapeCasts_S1024_S1024x1)
    (broadcast S1024x1 (Scalar.ofBits (F := Ideal) .f32 0x3A800000#32))

/-- The scale column. -/
def scaleCol : FVec Ideal S1024x1 .f32 :=
  rsqrt (addf (maximumf (varCol x0) (broadcast S1024x1 (Scalar.ofBits (F := Ideal) .f32 0x00000000#32)))
    (broadcast S1024x1 (Scalar.ofBits (F := Ideal) .f32 0x3727C5AC#32)))

/-- The normalised block. -/
def normed : FVec Ideal S1024x1024 .f32 :=
  mulf (dev x0) (broadcastTo S1024x1024 (scaleCol x0) broadcasts_S1024x1_S1024x1024)

/-- The one-hot matrix. -/
def onehot : FVec Ideal S16x1024 .f32 :=
  sitofp .f32 (extui 32 (cmpi .eq (iota .tc S16x1024 32 [0] iota_S16x1024_d0_w32)
    (broadcastTo S16x1024 (shapeCast S1x1024 x1 shapeCasts_S1x1024_S1x1024) broadcasts_S1x1024_S16x1024)) natLt_1_32)

/-- The selected table rows. -/
def selected : FVec Ideal S1024x2048 .f32 :=
  matmul dot_S16x1024_S16x2048_S1024x2048_0_0_1_1_n_n (some .fp32) (onehot x1)
    (shapeCast S16x2048 x2 shapeCasts_S16x2048_S16x2048) (constant S1024x2048 .f32 0x00000000#32)

/-- The stored value is the normalised block times the weight half of the selected rows, plus the bias half. -/
theorem pay_split : k0_pay1 (F := Ideal) x0 x1 x2
    = addf (mulf (normed x0) (extractStridedSlice S1024x1024 ![0, 0] (selected x1 x2) slices_S1024x2048_o0_0_S1024x1024))
        (extractStridedSlice S1024x1024 ![0, 1024] (selected x1 x2) slices_S1024x2048_o0_1024_S1024x1024) := rfl

/-! ## Each at an index -/

theorem meanCol_at (p : Fin 1024) : meanCol x0 (ix2 p (0 : Fin 1)) = kMean (fun k => x0 (ix2 p k)) := by
  show shapeCast S1024x1 _ shapeCasts_S1024_S1024x1 (ix2 p (0 : Fin 1)) * Ideal.ofBits .f32 0x3A800000#32 = _
  rw [col_at, rowsum_at]
  rfl

theorem dev_at (p q : Fin 1024) : dev x0 (ix2 p q) = x0 (ix2 p q) - kMean (fun k => x0 (ix2 p k)) := by
  show x0 (ix2 p q) - broadcastTo S1024x1024 (meanCol x0) broadcasts_S1024x1_S1024x1024 (ix2 p q) = _
  rw [bcol_at, meanCol_at]

theorem varCol_at (p : Fin 1024) : varCol x0 (ix2 p (0 : Fin 1)) = kVar (fun k => x0 (ix2 p k)) := by
  show shapeCast S1024x1 _ shapeCasts_S1024_S1024x1 (ix2 p (0 : Fin 1)) * Ideal.ofBits .f32 0x3A800000#32 = _
  rw [col_at, rowsum_at]
  have e : ∀ k : Fin 1024, mulf (dev x0) (dev x0) (ix2 p k)
      = (x0 (ix2 p k) - kMean (fun k => x0 (ix2 p k))) * (x0 (ix2 p k) - kMean (fun k => x0 (ix2 p k))) := fun k => by
    show dev x0 (ix2 p k) * dev x0 (ix2 p k) = _
    rw [dev_at]
  simp only [e]
  rfl

theorem scaleCol_at (p : Fin 1024) : scaleCol x0 (ix2 p (0 : Fin 1))
    = Ideal.rsqrt (max (kVar (fun k => x0 (ix2 p k))) (Ideal.ofBits .f32 0x00000000#32) + Ideal.ofBits .f32 0x3727C5AC#32) := by
  show Ideal.rsqrt (max (varCol x0 (ix2 p (0 : Fin 1))) (Ideal.ofBits .f32 0x00000000#32) + Ideal.ofBits .f32 0x3727C5AC#32) = _
  rw [varCol_at]

theorem normed_at (p q : Fin 1024) : normed x0 (ix2 p q)
    = (x0 (ix2 p q) - kMean (fun k => x0 (ix2 p k)))
      * Ideal.rsqrt (max (kVar (fun k => x0 (ix2 p k))) (Ideal.ofBits .f32 0x00000000#32) + Ideal.ofBits .f32 0x3727C5AC#32) := by
  show dev x0 (ix2 p q) * broadcastTo S1024x1024 (scaleCol x0) broadcasts_S1024x1_S1024x1024 (ix2 p q) = _
  rw [dev_at, bcol_at, scaleCol_at]

theorem onehot_at (k : Fin 16) (p : Fin 1024) : onehot x1 (ix2 k p) = oh k (x1 (ix2 (0 : Fin 1) p)) := by
  show (((BitVec.setWidth 32 (IntOp.cmpi .eq (iota .tc S16x1024 32 [0] iota_S16x1024_d0_w32 (ix2 k p))
    (broadcastTo S16x1024 (shapeCast S1x1024 x1 shapeCasts_S1x1024_S1x1024) broadcasts_S1x1024_S16x1024 (ix2 k p)))).toInt : ℝ) : EReal) = _
  rw [iota_single_apply, brow_at, shapeCast_self]
  rfl

/-! ## The contraction: its operand indices, axis by axis -/

theorem lhs_0 (i : S1024x2048.Idx) (q : dot_S16x1024_S16x2048_S1024x2048_0_0_1_1_n_n.contr.Idx) :
    (dot_S16x1024_S16x2048_S1024x2048_0_0_1_1_n_n.lhsIdx i q 0).val = (q ⟨0, by decide⟩).val :=
  dot_S16x1024_S16x2048_S1024x2048_0_0_1_1_n_n.lhsIdx_val_of_single rfl i q
theorem lhs_1 (i : S1024x2048.Idx) (q : dot_S16x1024_S16x2048_S1024x2048_0_0_1_1_n_n.contr.Idx) :
    (dot_S16x1024_S16x2048_S1024x2048_0_0_1_1_n_n.lhsIdx i q 1).val = (i 0).val := by
  unfold DotDims.lhsIdx
  rw [dif_neg (show ¬(1 : Fin S16x1024.rank) ∈ dot_S16x1024_S16x2048_S1024x2048_0_0_1_1_n_n.lhsBatch by decide),
    dif_pos (show (1 : Fin S16x1024.rank) ∈ dot_S16x1024_S16x2048_S1024x2048_0_0_1_1_n_n.lhsNonContracting by decide)]
  rfl
theorem rhs_0 (i : S1024x2048.Idx) (q : dot_S16x1024_S16x2048_S1024x2048_0_0_1_1_n_n.contr.Idx) :
    (dot_S16x1024_S16x2048_S1024x2048_0_0_1_1_n_n.rhsIdx i q 0).val = (q ⟨0, by decide⟩).val :=
  dot_S16x1024_S16x2048_S1024x2048_0_0_1_1_n_n.rhsIdx_val_of_single rfl i q
theorem rhs_1 (i : S1024x2048.Idx) (q : dot_S16x1024_S16x2048_S1024x2048_0_0_1_1_n_n.contr.Idx) :
    (dot_S16x1024_S16x2048_S1024x2048_0_0_1_1_n_n.rhsIdx i q 1).val = (i 1).val := by
  unfold DotDims.rhsIdx
  rw [dif_neg (show ¬(1 : Fin S16x2048.rank) ∈ dot_S16x1024_S16x2048_S1024x2048_0_0_1_1_n_n.rhsBatch by decide),
    dif_pos (show (1 : Fin S16x2048.rank) ∈ dot_S16x1024_S16x2048_S1024x2048_0_0_1_1_n_n.rhsNonContracting by decide)]
  rfl

/-- The selected rows at (p, j): the one-hot column of p against column j of the table. -/
theorem selected_at (p : Fin 1024) (j : Fin 2048) :
    selected x1 x2 (ix2 p j) = ∑ k : Fin 16, oh k (x1 (ix2 (0 : Fin 1) p)) * x2 (ix2 k j) := by
  unfold selected
  rw [shapeCast_self]
  refine (Ideal.matmul_constant_zero_apply dot_S16x1024_S16x2048_S1024x2048_0_0_1_1_n_n (some .fp32) (onehot x1) x2 (ix2 p j)).trans ?_
  rw [← Equiv.sum_comp (contrEquiv1 dot_S16x1024_S16x2048_S1024x2048_0_0_1_1_n_n 16 rfl rfl).symm]
  refine Finset.sum_congr rfl fun k _ => ?_
  have hk := contrEquiv1_symm_val dot_S16x1024_S16x2048_S1024x2048_0_0_1_1_n_n 16 rfl rfl k
  have el : dot_S16x1024_S16x2048_S1024x2048_0_0_1_1_n_n.lhsIdx (ix2 p j)
      ((contrEquiv1 dot_S16x1024_S16x2048_S1024x2048_0_0_1_1_n_n 16 rfl rfl).symm k) = ix2 k p :=
    funext fun a => Fin.ext (by
      match a with
      | ⟨0, _⟩ => exact (lhs_0 _ _).trans hk
      | ⟨1, _⟩ => exact lhs_1 _ _)
  have er : dot_S16x1024_S16x2048_S1024x2048_0_0_1_1_n_n.rhsIdx (ix2 p j)
      ((contrEquiv1 dot_S16x1024_S16x2048_S1024x2048_0_0_1_1_n_n 16 rfl rfl).symm k) = ix2 k j :=
    funext fun a => Fin.ext (by
      match a with
      | ⟨0, _⟩ => exact (rhs_0 _ _).trans hk
      | ⟨1, _⟩ => exact rhs_1 _ _)
  rw [el, er, onehot_at]

/-- THE STORED VALUE AT (p, q) is the kernel's element of row p of the block, for the index word of column p and the
    table's columns q and 1024 + q. -/
theorem pay_at (p q : Fin 1024) : k0_pay1 (F := Ideal) x0 x1 x2 (ix2 p q)
    = kElt (fun k => x0 (ix2 p k)) q (x1 (ix2 (0 : Fin 1) p)) (fun k => x2 (ix2 k (colW q))) (fun k => x2 (ix2 k (colB q))) := by
  rw [pay_split]
  show normed x0 (ix2 p q)
      * extractStridedSlice S1024x1024 ![0, 0] (selected x1 x2) slices_S1024x2048_o0_0_S1024x1024 (ix2 p q)
    + extractStridedSlice S1024x1024 ![0, 1024] (selected x1 x2) slices_S1024x2048_o0_1024_S1024x1024 (ix2 p q) = _
  rw [extractStridedSlice_apply ![0, 0] (selected x1 x2) slices_S1024x2048_o0_0_S1024x1024 (ix2 p q) (ix2 p (colW q))
      (fun a => match a with
        | ⟨0, _⟩ => by show p.val = 0 + p.val; omega
        | ⟨1, _⟩ => by show q.val = 0 + q.val; omega),
    extractStridedSlice_apply ![0, 1024] (selected x1 x2) slices_S1024x2048_o0_1024_S1024x1024 (ix2 p q) (ix2 p (colB q))
      (fun a => match a with
        | ⟨0, _⟩ => by show p.val = 0 + p.val; omega
        | ⟨1, _⟩ => by show 1024 + q.val = 1024 + q.val; rfl),
    normed_at, selected_at, selected_at]
  rfl

end Cert.KernelPayload

end
-- ==== Proof.SpecArray.lean ====
/-
  The two programs' results as whole arrays: at row r and column q of the [65536, 1024] result, the element of
  Spec.lean computed from row r of x, the index word ids r, and column q of the two [16, 1024] tables. Under the
  precondition (x real everywhere, every index word in [0, 16)) the two arrays are one.
-/
import proofs.«414600_j86955907875125_3_alg».proof.Proof.Spec

noncomputable section

namespace Cert.Spec

open Idealize.ShloMosaic Idealize.ShloMosaic.ValueIdx

/-- The kernel's result: each row normalised with the kernel's arithmetic, its affine pair picked by the one-hot
    contraction against the index word clamped to [0, 15]. -/
def Gk (X : (⟨2, ![65536, 1024]⟩ : Shape).Idx → EReal) (ids : (⟨1, ![65536]⟩ : Shape).Idx → BitVec 32)
    (Wt Bt : (⟨2, ![16, 1024]⟩ : Shape).Idx → EReal) : (⟨2, ![65536, 1024]⟩ : Shape).Idx → EReal := fun i =>
  kElt (fun k : Fin 1024 => X (ix2 (i 0 : Fin 65536) k)) (i 1 : Fin 1024)
    (IntOp.minsi 15#32 (IntOp.maxsi 0#32 (ids (ix1 (i 0 : Fin 65536)))))
    (fun k : Fin 16 => Wt (ix2 k (i 1 : Fin 1024))) (fun k : Fin 16 => Bt (ix2 k (i 1 : Fin 1024)))

/-- The reference's result: each row normalised with the reference's arithmetic, its affine pair read from the
    table row the index word names. -/
def Gr (X : (⟨2, ![65536, 1024]⟩ : Shape).Idx → EReal) (ids : (⟨1, ![65536]⟩ : Shape).Idx → BitVec 32)
    (Wt Bt : (⟨2, ![16, 1024]⟩ : Shape).Idx → EReal) : (⟨2, ![65536, 1024]⟩ : Shape).Idx → EReal := fun i =>
  rElt (fun k : Fin 1024 => X (ix2 (i 0 : Fin 65536) k)) (i 1 : Fin 1024) (ids (ix1 (i 0 : Fin 65536)))
    (fun k : Fin 16 => Wt (ix2 k (i 1 : Fin 1024))) (fun k : Fin 16 => Bt (ix2 k (i 1 : Fin 1024)))

/-- Where x is real everywhere and every index word lies in [0, 16), the two results agree at every element. -/
theorem Gk_eq_Gr (X : (⟨2, ![65536, 1024]⟩ : Shape).Idx → EReal) (ids : (⟨1, ![65536]⟩ : Shape).Idx → BitVec 32)
    (Wt Bt : (⟨2, ![16, 1024]⟩ : Shape).Idx → EReal) (hX : ∀ i, ∃ r : ℝ, X i = (r : EReal))
    (hid : ∀ i, (ids i).toNat < 16) : Gk X ids Wt Bt = Gr X ids Wt Bt :=
  funext fun i => kElt_eq_rElt _ (fun _ => hX _) _ _ (hid _) _ _

end Cert.Spec

end
-- ==== Proof.KernelValue.lean ====
/-
  The kernel's result array. Grid point t stages rows 1024·t … 1024·t + 1023 of x, the same stretch of the index
  words (clamped to [0, 15] by the host and laid out as one [1, 65536] row), and the whole [16, 2048] table (the
  weight and bias tables side by side); it writes back the same rows of the result. So the block point t writes is
  block t of ONE array, the array Gk of Spec.lean computed from the four arguments, and the 64 blocks tile the result.
-/
import proofs.«414600_j86955907875125_3_alg».proof.Proof.Gen.KernelIdeal.Value
import proofs.«414600_j86955907875125_3_alg».proof.Proof.KernelPayload
import proofs.«414600_j86955907875125_3_alg».proof.Proof.SpecArray
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelValue

open Idealize.ShloMosaic.ValueIdx Cert.KernelIdeal Cert.KernelIdeal.Gen Cert.KernelIdeal.Value Cert.Spec Cert.KernelPayload

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds -/

/-- The index words as the region finds them: each clamped to [0, 15], the vector viewed as one row. -/
theorem ids_found (c : Dev nD) : (V m c main_v2 : S1x65536.Idx → BitVec 32)
    = shapeCast S1x65536 (minsi (broadcastInDim S65536 ![] bcast_S_S65536 (constantI S_ 32 15#32))
        (maxsi (broadcastInDim S65536 ![] bcast_S_S65536 (constantI S_ 32 0#32)) (m ((c : Thread nD τ).loc main_arg1))))
      shapeCasts_S65536_S1x65536 := by
  dsimp only [V]
  simp only [hostOps0, hostOps0_1, hostOps0_2, List.flatten_cons, List.flatten_nil, List.append_nil, List.cons_append,
    List.nil_append]
  after_results
  rfl

/-- The table as the region finds it: the weight and bias tables side by side. -/
theorem table_found (c : Dev nD) : (V m c main_v1 : S16x2048.Idx → EReal)
    = concatenate S16x2048 1 [⟨S16x1024, m ((c : Thread nD τ).loc main_arg2)⟩, ⟨S16x1024, m ((c : Thread nD τ).loc main_arg3)⟩]
        concatenates_S16x1024_S16x1024_S16x2048_d1 := by
  dsimp only [V]
  simp only [hostOps0, hostOps0_1, hostOps0_2, List.flatten_cons, List.flatten_nil, List.append_nil, List.cons_append,
    List.nil_append]
  after_results

/-- Two [16, 1024] tables side by side, read in the left half: the first table. -/
theorem concat_w (W B : S16x1024.Idx → EReal) (k : Fin 16) (q : Fin 1024) :
    concatenate S16x2048 1 [⟨S16x1024, W⟩, ⟨S16x1024, B⟩] concatenates_S16x1024_S16x1024_S16x2048_d1 (ix2 k (colW q))
      = W (ix2 k q) :=
  concatenate_pair_apply_left (t := S16x2048) (s₁ := S16x1024) (s₂ := S16x1024) 1 W B
    concatenates_S16x1024_S16x1024_S16x2048_d1 (ix2 k (colW q)) rfl (ix2 k q)
    (fun b => match b with | ⟨0, _⟩ => rfl | ⟨1, _⟩ => rfl)

/-- Read in the right half: the second table, 1024 columns back. -/
theorem concat_b (W B : S16x1024.Idx → EReal) (k : Fin 16) (q : Fin 1024) :
    concatenate S16x2048 1 [⟨S16x1024, W⟩, ⟨S16x1024, B⟩] concatenates_S16x1024_S16x1024_S16x2048_d1 (ix2 k (colB q))
      = B (ix2 k q) :=
  concatenate_pair_apply_right (t := S16x2048) (s₁ := S16x1024) (s₂ := S16x1024) 1 W B
    concatenates_S16x1024_S16x1024_S16x2048_d1 (ix2 k (colB q)) rfl rfl (ix2 k q)
    (fun b hb => match b, hb with | ⟨0, _⟩, _ => rfl | ⟨1, _⟩, hb => absurd rfl hb)
    (by show q.val + 1024 = 1024 + q.val; omega)

/-! ## The printed index maps over the grid -/

/-- Point t's blocks: rows block t of x and of the result, columns block t of the index-word row, the whole table. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 64 := lt_of_lt_of_eq t.isLt N_0

/-- Row p of point t's block is row 1024·t + p of the array. -/
abbrev rowAt (t : Fin cfg0.N) (p : Fin 1024) : Fin 65536 :=
  ⟨t.val * 1024 + p.val, by have := t_lt t; have := p.isLt; omega⟩

/-! ## Each staged block, read at an index of the argument it comes from -/

/-- The block of x at point t. -/
theorem x_block (c : Dev nD) (t : Fin cfg0.N) (p q : Fin 1024) :
    (iblk m c 0 t : FVec Ideal S1024x1024 .f32) (ix2 p q)
      = (m ((c : Thread nD τ).loc main_arg0) : S65536x1024.Idx → EReal) (ix2 (rowAt t p) q) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 1024 + 1 * q.val = q.val; rw [e1]; omega

/-- The block of index words at point t: the words of rows 1024·t …, each clamped to [0, 15]. -/
theorem ids_block (c : Dev nD) (t : Fin cfg0.N) (p : Fin 1024) :
    (iblk m c 1 t : IVec S1x1024 32) (ix2 (0 : Fin 1) p)
      = IntOp.minsi 15#32 (IntOp.maxsi 0#32 ((m ((c : Thread nD τ).loc main_arg1) : S65536.Idx → BitVec 32) (ix1 (rowAt t p)))) := by
  obtain ⟨-, -, e2, e3, -⟩ := idx_facts t
  unfold iblk
  rw [View.read_apply]
  show (V m c main_v2 : S1x65536.Idx → BitVec 32) _ = _
  rw [ids_found]
  refine (shapeCast_apply _ _ _ (ix1 (rowAt t p)) ?_).trans rfl
  show ((⟨1, ![65536]⟩ : Shape).rowMajor (ix1 (rowAt t p))).val = ((⟨2, ![1, 65536]⟩ : Shape).rowMajor _).val
  rw [Shape.rowMajor_val_one, Shape.rowMajor_val_two]
  show t.val * 1024 + p.val = (win0_1.index t (0 : Fin 2) * 1 + 1 * 0) * 65536 + (win0_1.index t (1 : Fin 2) * 1024 + 1 * p.val)
  rw [e2, e3]
  omega

/-- The table's weight half, at any point. -/
theorem table_block_w (c : Dev nD) (t : Fin cfg0.N) (k : Fin 16) (q : Fin 1024) :
    (iblk m c 2 t : FVec Ideal S16x2048 .f32) (ix2 k (colW q))
      = (m ((c : Thread nD τ).loc main_arg2) : S16x1024.Idx → EReal) (ix2 k q) := by
  obtain ⟨-, -, -, -, e4, e5, -⟩ := idx_facts t
  unfold iblk
  rw [View.read_apply]
  show (V m c main_v1 : S16x2048.Idx → EReal) _ = _
  rw [table_found]
  have hemb : ((cfg0.win 2).blk t).view.emb (ix2 k (colW q)) = ix2 k (colW q) := funext fun a => Fin.ext (by
    match a with
    | ⟨0, _⟩ => show win0_2.index t (0 : Fin 2) * 16 + 1 * k.val = k.val; rw [e4]; omega
    | ⟨1, _⟩ => show win0_2.index t (1 : Fin 2) * 2048 + 1 * q.val = q.val; rw [e5]; omega)
  rw [hemb]
  exact concat_w _ _ k q

/-- The table's bias half, at any point. -/
theorem table_block_b (c : Dev nD) (t : Fin cfg0.N) (k : Fin 16) (q : Fin 1024) :
    (iblk m c 2 t : FVec Ideal S16x2048 .f32) (ix2 k (colB q))
      = (m ((c : Thread nD τ).loc main_arg3) : S16x1024.Idx → EReal) (ix2 k q) := by
  obtain ⟨-, -, -, -, e4, e5, -⟩ := idx_facts t
  unfold iblk
  rw [View.read_apply]
  show (V m c main_v1 : S16x2048.Idx → EReal) _ = _
  rw [table_found]
  have hemb : ((cfg0.win 2).blk t).view.emb (ix2 k (colB q)) = ix2 k (colB q) := funext fun a => Fin.ext (by
    match a with
    | ⟨0, _⟩ => show win0_2.index t (0 : Fin 2) * 16 + 1 * k.val = k.val; rw [e4]; omega
    | ⟨1, _⟩ => show win0_2.index t (1 : Fin 2) * 2048 + 1 * (1024 + q.val) = 1024 + q.val; rw [e5]; omega)
  rw [hemb]
  exact concat_b _ _ k q

/-! ## What each point writes back, and the whole array -/

/-- The result array. -/
abbrev result (c : Dev nD) : S65536x1024.Idx → EReal :=
  Gk (m ((c : Thread nD τ).loc main_arg0)) (m ((c : Thread nD τ).loc main_arg1)) (m ((c : Thread nD τ).loc main_arg2))
    (m ((c : Thread nD τ).loc main_arg3))

/-- WHAT POINT t WRITES BACK is block t of the result array. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz]
  simp only [View.ld_unit_zero (S := S1024x1024) hz, View.ld_unit_zero (S := S1x1024) hz, View.ld_unit_zero (S := S16x2048) hz]
  obtain ⟨-, -, -, -, -, -, e6, e7⟩ := idx_facts t
  funext j
  obtain ⟨p, q, rfl⟩ : ∃ (p q : Fin 1024), j = ix2 p q := ⟨j 0, j 1, eq_ix2 (n0 := 1024) (n1 := 1024) j⟩
  show k0_pay1 (F := Ideal) (iblk m c 0 t) (iblk m c 1 t) (iblk m c 2 t) (ix2 p q)
    = result m c (((cfg0.win 3).blk t).view.emb (ix2 p q))
  have hemb : ((cfg0.win 3).blk t).view.emb (ix2 p q) = ix2 (rowAt t p) q := funext fun a => Fin.ext (by
    match a with
    | ⟨0, _⟩ => show win0_3.index t (0 : Fin 2) * 1024 + 1 * p.val = t.val * 1024 + p.val; rw [e6]; omega
    | ⟨1, _⟩ => show win0_3.index t (1 : Fin 2) * 1024 + 1 * q.val = q.val; rw [e7]; omega)
  rw [hemb]
  refine (pay_at (iblk m c 0 t) (iblk m c 1 t) (iblk m c 2 t) p q).trans ?_
  show _ = kElt (fun k : Fin 1024 => (m ((c : Thread nD τ).loc main_arg0) : S65536x1024.Idx → EReal) (ix2 (rowAt t p) k)) q
    (IntOp.minsi 15#32 (IntOp.maxsi 0#32 ((m ((c : Thread nD τ).loc main_arg1) : S65536.Idx → BitVec 32) (ix1 (rowAt t p)))))
    (fun k : Fin 16 => (m ((c : Thread nD τ).loc main_arg2) : S16x1024.Idx → EReal) (ix2 k q))
    (fun k : Fin 16 => (m ((c : Thread nD τ).loc main_arg3) : S16x1024.Idx → EReal) (ix2 k q))
  rw [ids_block, funext fun k => x_block m c t p k, funext fun k => table_block_w m c t k q,
    funext fun k => table_block_b m c t k q]

/-- An index of the array is in point t's block iff each coordinate is in the block's range on its axis. -/
theorem mem_blk (t : Fin cfg0.N) (i : S65536x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- Every row of the result lies in the block of the point its number divided by 1024 names. -/
theorem cover (i : S65536x1024.Idx) :
    ∃ t : Fin cfg0.N, (cfg0.win 3).flush t = true ∧ i ∈ ((cfg0.win 3).blk t).view.set := by
  have hi0 : (i 0).val < 65536 := (i 0).isLt
  have hi1 : (i 1).val < 1024 := (i 1).isLt
  have hN : cfg0.N = 64 := N_0
  obtain ⟨t, ht⟩ : ∃ t : Fin cfg0.N, t.val = (i 0).val / 1024 := ⟨⟨(i 0).val / 1024, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 1024 ≤ (i 1).val ∧ (i 1).val < win0_3.index t (1 : Fin 2) * 1024 + 1024
    rw [e7]; omega

/-- THE ARRAY after the run is the result array. -/
theorem final (c : Dev nD) : (dats m 0 c).arrAt 3 cfg0.N = result m c :=
  (dats m 0 c).arrAt_eq_of_cover 3 (result m c) (fun t _ => flushed_eq m c t) cover

/-- The run, read: the result buffer at the result array, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelValue

end
-- ==== Proof.LibRowGather.lean ====
/-
  THE ROW GATHER READ AT AN INDEX. What `table[idx]` of a rank-2 table `table : [N, C]` at a vector of row indices
  lowers to: a `stablehlo.gather` with offset_dims `[1]`, collapsed_slice_dims `[0]`, start_index_map `[0]`,
  index_vector_dim `1` and slice_sizes `[1, C]`, over the indices kept as an `[n, 1]` column. Its result is `[n, C]`,
  and the element at `(p, q)` is the table's at `(row, q)`, where `row` is the start index `idx[p, 0]` read as a SIGNED
  integer and CLAMPED into `[0, N − 1]` (StableHLO clamps every start index so that the slice fits; here the slice is
  one row, so the clamp is to the last row): a negative index reads row `0`, one past the end reads row `N − 1`.

  `rowDims` is the record of those dimension numbers, written as a literal structure so that every list lookup in the
  gather's operand index computes; `rowGather_apply` is the read. The lemma is general in `N`, `C`, `n`, the index
  width `w` and the element type; the conditions `wf` on the dimension numbers are decided on a program's literal
  shapes. This is the rank-2 companion of `ValueIdx.gather_take_apply` (a rank-1 table).
-/
import Idealize.ShloMosaic.PureOps.Ideal
import Idealize.ShloMosaic.Lib.ValueIdx
noncomputable section
namespace Idealize.ShloMosaic.RowGather
open Idealize.ShloMosaic Idealize.ShloMosaic.ValueIdx

/-- The dimension numbers of a row gather out of an [N, C] table at an [n, 1] column of row indices. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather read at (p, q): the table at the clamped signed start index of row p, column q. -/
theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    -- the start index's one component is read at (p, 0): the result's batch coordinate p on the start indices' axis 0,
    -- the component's number 0 on the index vector's axis 1
    have hsi : (rowDims N C n wf).siIdx (ix2 p q) ⟨List.idxOf (0 : Fin 2) (rowDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (rowDims N C n wf).start (ix2 p q) idx 1 + (rowDims N C n wf).batchCoord (ix2 p q) 1
        + (rowDims N C n wf).offCoord (ix2 p q) 1 = q.val
    have hk : (1 : Fin 2) ∈ (rowDims N C n wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (rowDims N C n wf).startIndexMap by
      show (1 : Fin 2) ∉ [(0 : Fin 2)]; decide), dif_pos hk]
    simp only [Nat.zero_add]
    rfl
end Idealize.ShloMosaic.RowGather
end
-- ==== Proof.RefValue.lean ====
/-
  The reference's result, read one element at a time. At (r, q): the row mean is the sum of row r from 0 divided by
  1024, held in a [65536, 1] column and broadcast back along the row; the deviation x(r, q) − mean; the variance the
  same sum over the squared deviations; the quotient of the deviation by √(variance + ε); and the two table reads are
  row gathers at the index word of row r (a negative word wrapped by 16, the start index clamped into the table).
  Put together this is the element rElt of Spec.lean, so the whole result is the array Gr.
-/
import proofs.«414600_j86955907875125_3_alg».proof.Proof.Gen.ReferenceIdeal.Read
import proofs.«414600_j86955907875125_3_alg».proof.Proof.SpecArray
import proofs.«414600_j86955907875125_3_alg».proof.Proof.LibRowGather

noncomputable section

namespace Cert.RefValue

open Idealize.ShloMosaic Idealize.ShloMosaic.ValueIdx Cert.ReferenceIdeal Cert.ReferenceIdeal.Gen
  Cert.ReferenceIdeal.Read Cert.Spec

variable (x0 : (⟨S65536x1024, .f32⟩ : BufTy).Contents (Elt Ideal)) (x1 : (⟨S65536, .i32⟩ : BufTy).Contents (Elt Ideal))
  (x2 x3 : (⟨S16x1024, .f32⟩ : BufTy).Contents (Elt Ideal))

/-- Row r of x as a function of the column. -/
abbrev row (r : Fin 65536) : Fin 1024 → EReal := fun k => x0 (ix2 r k)

/-- The mean column at row r is the reference's mean of row r. -/
theorem mean_at (r : Fin 65536) : val_main_v3 (F := Ideal) x0 (ix2 r (0 : Fin 1)) = rMean (row x0 r) := by
  rw [val_main_v3_apply, val_main_v1_apply, val_main_v0_apply, val_main_v2_apply, val_main_cst_0_apply,
    val_main_cst_apply]
  have e : ∀ k : Fin 1024, idx_main_v0 (idx_main_v1 (ix2 r (0 : Fin 1))) k = ix2 r k := fun k =>
    funext fun a => Fin.ext (by match a with | ⟨0, _⟩ => rfl | ⟨1, _⟩ => rfl)
  simp only [e]
  rfl

/-- The deviation at (r, k), as the variance's operand computes it. -/
theorem dev_at (r : Fin 65536) (k : Fin 1024) :
    val_main_v5 (F := Ideal) x0 (ix2 r k) = x0 (ix2 r k) - rMean (row x0 r) := by
  have e : idx_main_v4 (ix2 r k) = ix2 r (0 : Fin 1) :=
    funext fun a => Fin.ext (by match a with | ⟨0, _⟩ => rfl | ⟨1, _⟩ => rfl)
  rw [val_main_v5_apply, val_main_v4_apply, e, mean_at]
  rfl

/-- The deviation at (r, q), as the quotient's numerator computes it (the same broadcast of the mean column). -/
theorem dev_at' (r : Fin 65536) (q : Fin 1024) :
    val_main_v12 (F := Ideal) x0 (ix2 r q) = x0 (ix2 r q) - rMean (row x0 r) := by
  have e : idx_main_v11 (ix2 r q) = ix2 r (0 : Fin 1) :=
    funext fun a => Fin.ext (by match a with | ⟨0, _⟩ => rfl | ⟨1, _⟩ => rfl)
  rw [val_main_v12_apply, val_main_v11_apply, e, mean_at]
  rfl

/-- The variance column at row r is the reference's variance of row r. -/
theorem var_at (r : Fin 65536) : val_main_v10 (F := Ideal) x0 (ix2 r (0 : Fin 1)) = rVar (row x0 r) := by
  rw [val_main_v10_apply, val_main_v8_apply, val_main_v7_apply, val_main_v9_apply, val_main_cst_2_apply,
    val_main_cst_1_apply]
  have e : ∀ k : Fin 1024, idx_main_v7 (idx_main_v8 (ix2 r (0 : Fin 1))) k = ix2 r k := fun k =>
    funext fun a => Fin.ext (by match a with | ⟨0, _⟩ => rfl | ⟨1, _⟩ => rfl)
  simp only [e, val_main_v6_apply, dev_at]
  rfl

/-- The normalised element at (r, q): the deviation over √(variance + ε). -/
theorem norm_at (r : Fin 65536) (q : Fin 1024) :
    val_main_v17 (F := Ideal) x0 (ix2 r q)
      = Ideal.div (x0 (ix2 r q) - rMean (row x0 r)) (Ideal.sqrt (rVar (row x0 r) + Ideal.ofBits .f32 0x3727C5AC#32)) := by
  have e : idx_main_v16 (ix2 r q) = ix2 r (0 : Fin 1) :=
    funext fun a => Fin.ext (by match a with | ⟨0, _⟩ => rfl | ⟨1, _⟩ => rfl)
  rw [val_main_v17_apply, dev_at', val_main_v16_apply, e, val_main_v15_apply, val_main_v14_apply, var_at,
    val_main_v13_apply, val_main_cst_3_apply]
  rfl

/-- The start index the weight gather reads for row r: the index word of row r, a negative word wrapped by 16. -/
theorem start_w (r : Fin 65536) :
    val_main_v23 (F := Ideal) x1 (ix2 r (0 : Fin 1))
      = Scalar.select (IntOp.cmpi .slt (x1 (ix1 r)) 0#32) (IntOp.addi (x1 (ix1 r)) 16#32) (x1 (ix1 r)) := by
  have e : idx_main_v23 (ix2 r (0 : Fin 1)) = ix1 r :=
    funext fun a => Fin.ext (by match a with | ⟨0, _⟩ => rfl)
  rw [val_main_v23_apply, e, val_main_v22_apply, val_main_v19_apply, val_main_v21_apply, val_main_v18_apply,
    val_main_v20_apply, val_main_c_apply, val_main_c_4_apply]

/-- The same for the bias gather (the program computes the wrapped word twice). -/
theorem start_b (r : Fin 65536) :
    val_main_v30 (F := Ideal) x1 (ix2 r (0 : Fin 1))
      = Scalar.select (IntOp.cmpi .slt (x1 (ix1 r)) 0#32) (IntOp.addi (x1 (ix1 r)) 16#32) (x1 (ix1 r)) := by
  have e : idx_main_v30 (ix2 r (0 : Fin 1)) = ix1 r :=
    funext fun a => Fin.ext (by match a with | ⟨0, _⟩ => rfl)
  rw [val_main_v30_apply, e, val_main_v29_apply, val_main_v26_apply, val_main_v28_apply, val_main_v25_apply,
    val_main_v27_apply, val_main_c_5_apply, val_main_c_6_apply]

/-- The gathered weight at (r, q) is the weight table at the row the index word of row r names, column q. -/
theorem weight_at (r : Fin 65536) (q : Fin 1024) :
    val_main_v24 (F := Ideal) x1 x2 (ix2 r q) = x2 (ix2 (rowOf (x1 (ix1 r))) q) := by
  unfold val_main_v24
  show Host.gather (RowGather.rowDims 16 1024 65536 Gen.gather_S16x1024_S65536x1_S65536x1024_1_0_n_n_0_1_11024_wf) x2
    (val_main_v23 (F := Ideal) x1) (ix2 r q) = _
  rw [RowGather.rowGather_apply (by decide)]
  refine congrArg x2 (congrArg (fun a : Fin 16 => ix2 a q) (Fin.ext ?_))
  show min (val_main_v23 (F := Ideal) x1 (ix2 r (0 : Fin 1))).toInt.toNat (16 - 1) = _
  rw [start_w]
  rfl

/-- The gathered bias likewise. -/
theorem bias_at (r : Fin 65536) (q : Fin 1024) :
    val_main_v31 (F := Ideal) x1 x3 (ix2 r q) = x3 (ix2 (rowOf (x1 (ix1 r))) q) := by
  unfold val_main_v31
  show Host.gather (RowGather.rowDims 16 1024 65536 Gen.gather_S16x1024_S65536x1_S65536x1024_1_0_n_n_0_1_11024_wf) x3
    (val_main_v30 (F := Ideal) x1) (ix2 r q) = _
  rw [RowGather.rowGather_apply (by decide)]
  refine congrArg x3 (congrArg (fun a : Fin 16 => ix2 a q) (Fin.ext ?_))
  show min (val_main_v30 (F := Ideal) x1 (ix2 r (0 : Fin 1))).toInt.toNat (16 - 1) = _
  rw [start_b]
  rfl

/-- THE REFERENCE'S RESULT is the array Gr of its four arguments. -/
theorem result_eq : val_main_v33 (F := Ideal) x0 x1 x2 x3 = Gr x0 x1 x2 x3 := by
  funext i
  obtain ⟨r, q, rfl⟩ : ∃ (r : Fin 65536) (q : Fin 1024), i = ix2 r q := ⟨i 0, i 1, eq_ix2 i⟩
  rw [val_main_v33_apply, val_main_v32_apply, norm_at, weight_at, bias_at]
  rfl

end Cert.RefValue

end
-- ==== Proof.PreFacts.lean ====
/-
  The precondition `finite_inputs`, read back element by element. The printed predicate is a conjunction of five
  `all`-reductions: |x| < +∞, |w| < +∞, |b| < +∞ over the three float arrays, and 0 ≤ id, id < 16 (signed) over the
  id array. When the predicate is 1, each conjunct is 1 (the `and` of two one-bit words is 1 only when both are), each
  reduction by `and` that is 1 met only 1s, and each element's comparison then says: an extended real whose absolute
  value max x (-x) is below +∞ is neither +∞ nor -∞, so it is a real; a 32-bit word that is at least 0 and below 16
  as a signed number has its sign bit clear, so its unsigned value is its signed value, below 16.
-/
import proofs.«414600_j86955907875125_3_alg».proof.Pre_finite_inputs
import Idealize.ShloMosaic.Lib.ReduceAll
import Idealize.ShloMosaic.Lib.StableHlo.Predicate
import Idealize.ShloMosaic.Lib.ValueIdx
import Idealize.ShloMosaic.PureOps.Ideal
noncomputable section
namespace Cert.PreFacts
open Idealize.ShloMosaic Cert.Pre_finite_inputs

/-- The shape of rank 0 has one index. -/
local instance : Subsingleton S_.Idx := ⟨fun a b => funext fun d => d.elim0⟩

/-- The f32 pattern 0x7F800000 (exponent all ones, significand zero, sign clear) denotes +∞. -/
theorem ofBits_inf : Ideal.ofBits .f32 0x7F800000#32 = (⊤ : EReal) := by simp [Ideal.ofBits, Ideal.ieee]

/-- An extended real whose absolute value max x (-x) is below +∞ is a real: at +∞ the maximum is +∞, and at -∞ its
    negation is. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One float element's comparison: |x| < (the pattern of +∞) being 1 makes x a real. -/
theorem real_of_cmp (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  have h' : BitVec.ofBool (decide (max x (-x) < Ideal.ofBits .f32 0x7F800000#32)) = 1#1 := h
  rw [ofBits_inf, StableHlo.Predicate.ofBool_eq_one_iff, decide_eq_true_eq] at h'
  exact h'

/-- A 32-bit word that is at least 0 and below 16, both signed, is below 16 unsigned: a word that is not negative has
    its sign bit clear, and then its unsigned value is its signed value. -/
theorem toNat_lt_16 (v : BitVec 32) (h0 : IntOp.cmpi .sge v 0#32 = 1#1) (h16 : IntOp.cmpi .slt v 16#32 = 1#1) :
    v.toNat < 16 := by
  rw [IntOp.cmpi_sge] at h0
  rw [IntOp.cmpi_slt] at h16
  have e0 : (0#32 : BitVec 32).toInt = 0 := by decide
  have e16 : (16#32 : BitVec 32).toInt = 16 := by decide
  rw [e0] at h0
  rw [e16] at h16
  have hlt := v.isLt
  rw [BitVec.toInt_eq_toNat_cond] at h0 h16
  split at h0 <;> omega

/-- What the precondition says of the argument arrays, element by element. -/
theorem decode [Cert.Pre_finite_inputs.Facts]
    (x : FVec Ideal S65536x1024 .f32) (ids : IVec S65536 32) (w b : FVec Ideal S16x1024 .f32)
    (h : Cert.Pre_finite_inputs.fn (F := Ideal) x ids w b = fun _ => 1#1) :
    (∀ i, ∃ r : ℝ, x i = (r : EReal)) ∧ (∀ i, ∃ r : ℝ, w i = (r : EReal)) ∧ (∀ i, ∃ r : ℝ, b i = (r : EReal))
      ∧ (∀ i, (ids i).toNat < 16) := by
  have e := congrFun h ValueIdx.ix0
  dsimp only [Cert.Pre_finite_inputs.fn, Cert.Pre_finite_inputs.fn_part1] at e
  simp only [andi, IntOp.andi_eq_one] at e
  obtain ⟨⟨⟨⟨hx, hw⟩, hb⟩, h0⟩, h16⟩ := e
  refine ⟨fun i => ?_, fun i => ?_, fun i => ?_, fun i => ?_⟩
  · exact real_of_cmp (x i) (Host.reduce_andi_all _ _ _ _ ValueIdx.ix0 hx i)
  · exact real_of_cmp (w i) (Host.reduce_andi_all _ _ _ _ ValueIdx.ix0 hw i)
  · exact real_of_cmp (b i) (Host.reduce_andi_all _ _ _ _ ValueIdx.ix0 hb i)
  · exact toNat_lt_16 (ids i) (Host.reduce_andi_all _ _ _ _ ValueIdx.ix0 h0 i)
      (Host.reduce_andi_all _ _ _ _ ValueIdx.ix0 h16 i)
end Cert.PreFacts
end
-- ==== Proof.lean ====
/-
  A per-row layer normalisation followed by a per-row affine map chosen by an integer label, over x : [65536, 1024],
  labels ids : [65536] and two tables w, b : [16, 1024]:

      out(r, q) = (x(r, q) − μ_r) / √(v_r + ε) · w(ids r, q) + b(ids r, q),   μ_r the mean and v_r the variance of row r.

  The reference computes exactly this: μ_r and v_r as sums divided by 1024, the quotient by √(v_r + ε), and the two
  table rows by a gather at ids r. The kernel works on 64 blocks of 1024 rows: it multiplies the sums by 2⁻¹⁰, guards
  the variance by a maximum with 0, scales by rsqrt (· + ε), and selects the table row by a one-hot contraction
  against the two tables laid side by side, with the label clamped to [0, 15] beforehand.

  On the extended reals these agree where x is finite and every label lies in [0, 16), which is the precondition:
  the quotient by 1024 is the product with 2⁻¹⁰; a sum of squares of reals is a non-negative real, so the maximum is
  idle and v_r + ε is a positive real, where scaling by rsqrt is dividing by the root; 0 · a = 0 for every extended
  real a, so the one-hot contraction is the named row; a label in [0, 16) is unchanged by the kernel's clamp and by the
  reference's wrap of negative labels. (Outside that range the two differ: a label in [−16, −1] selects row 0 in the
  kernel and row label + 16 in the reference.)

  The modules: Spec.lean and SpecArray.lean (one element and the whole array, both ways, and the law); RefValue.lean
  (the reference's result is the array); KernelPayload.lean and KernelValue.lean (each grid point writes its block of
  the array, and the blocks tile it); PreFacts.lean (the precondition, element by element); LibRowGather.lean (a row
  gather read at an index).
-/
import proofs.«414600_j86955907875125_3_alg».proof.Defs
import proofs.«414600_j86955907875125_3_alg».proof.Proof.Gen.Kernel
import proofs.«414600_j86955907875125_3_alg».proof.Proof.Gen.Kernel.Skeleton
import proofs.«414600_j86955907875125_3_alg».proof.Proof.Gen.Kernel.Launch
import proofs.«414600_j86955907875125_3_alg».proof.Proof.Gen.Kernel.Points
import proofs.«414600_j86955907875125_3_alg».proof.Proof.Gen.Kernel.Frame
import proofs.«414600_j86955907875125_3_alg».proof.Proof.Gen.KernelIdeal
import proofs.«414600_j86955907875125_3_alg».proof.Proof.Gen.KernelIdeal.Skeleton
import proofs.«414600_j86955907875125_3_alg».proof.Proof.Gen.KernelIdeal.Launch
import proofs.«414600_j86955907875125_3_alg».proof.Proof.Gen.KernelIdeal.Points
import proofs.«414600_j86955907875125_3_alg».proof.Proof.Gen.KernelIdeal.Frame
import proofs.«414600_j86955907875125_3_alg».proof.Proof.Gen.ReferenceIdeal
import proofs.«414600_j86955907875125_3_alg».proof.Proof.Gen.Pre_finite_inputs
import proofs.«414600_j86955907875125_3_alg».proof.Proof.Gen.KernelIdeal.Value
import proofs.«414600_j86955907875125_3_alg».proof.Proof.Gen.ReferenceIdeal.Run
import proofs.«414600_j86955907875125_3_alg».proof.Proof.Gen.ReferenceIdeal.Read
import proofs.«414600_j86955907875125_3_alg».proof.Proof.KernelValue
import proofs.«414600_j86955907875125_3_alg».proof.Proof.RefValue
import proofs.«414600_j86955907875125_3_alg».proof.Proof.PreFacts
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments and satisfy the precondition, the kernel's result array and the
    reference's are the same array: the kernel ends at Gk of the arguments, the reference at Gr, and the law joins them
    where x is real and every label lies in [0, 16). -/
theorem algebraic : Cert.algebraic_KernelIdeal_ReferenceIdeal := by
  intro m ρ m' ρ' hpre hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, -, -, hid⟩ := Cert.PreFacts.decode _ _ _ _ (hpre c)
  rw [(hagree c).1, (hagree c).2.1, (hagree c).2.2.1, (hagree c).2.2.2, Cert.ReferenceIdeal.Read.val_main_v33_eq,
    Cert.RefValue.result_eq]
  exact (Cert.Spec.Gk_eq_Gr _ _ _ _ hx hid).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
